-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x4096 : Shape := ⟨2, ![4, 4096]⟩
abbrev S_ : Shape := ⟨0, ![]⟩
abbrev S4x128x3 : Shape := ⟨3, ![4, 128, 3]⟩
abbrev S4x128 : Shape := ⟨2, ![4, 128]⟩
abbrev S4x128x1 : Shape := ⟨3, ![4, 128, 1]⟩
abbrev S4x4096x1 : Shape := ⟨3, ![4, 4096, 1]⟩
abbrev S4x1x4096 : Shape := ⟨3, ![4, 1, 4096]⟩
abbrev S4x128x4096 : Shape := ⟨3, ![4, 128, 4096]⟩

abbrev nBuf : Space → Nat
  | .hbm => 15
  | .vmem => 7
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096, .f32⟩
  | .hbm, ⟨3, _⟩ => ⟨S4x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S4x128x3, .f32⟩
  | .local _ .vmem, ⟨1, _⟩ => ⟨S4x128x3, .f32⟩
  | .local _ .vmem, ⟨2, _⟩ => ⟨S4x4096x3, .f32⟩
  | .local _ .vmem, ⟨3, _⟩ => ⟨S4x128, .f32⟩
  | .local _ .vmem, ⟨4, _⟩ => ⟨S4x128, .f32⟩
  | .local _ .vmem, ⟨5, _⟩ => ⟨S4x4096, .f32⟩
  | .local _ .vmem, ⟨6, _⟩ => ⟨S4x4096, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0_0 : Ref sig .tc := ⟨.hbm, 2, rfl⟩
abbrev main_call0_v0_1 : Ref sig .tc := ⟨.hbm, 3, rfl⟩
abbrev main_call0_cst : Ref sig .tc := ⟨.hbm, 4, rfl⟩
abbrev main_call0_v1 : Ref sig .tc := ⟨.hbm, 5, rfl⟩
abbrev main_call0_cst_0 : Ref sig .tc := ⟨.hbm, 6, rfl⟩
abbrev main_call0_v2 : Ref sig .tc := ⟨.hbm, 7, rfl⟩
abbrev main_call0_cst_1 : Ref sig .tc := ⟨.hbm, 8, rfl⟩
abbrev main_call0_v3 : Ref sig .tc := ⟨.hbm, 9, rfl⟩
abbrev main_call0_cst_2 : Ref sig .tc := ⟨.hbm, 10, rfl⟩
abbrev main_call0_v4 : Ref sig .tc := ⟨.hbm, 11, rfl⟩
abbrev main_call0_v5 : Ref sig .tc := ⟨.hbm, 12, rfl⟩
abbrev main_call0_cst_3 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v45 : BitVec 1 := Scalar.cmpi .eq arg0 c31_i32
  let v46 : BitVec 32 := Scalar.extui v45
  let c0_i32_13 : BitVec 32 := 0#32
  let v47 : BitVec 1 := Scalar.cmpi .ne v46 c0_i32_13
  v47

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x4096x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  reducesTo_S4x4096_S_d0_1 : S4x4096.ReducesTo [0, 1] S_
  h_S_ : 0 < S_.numel
  inb_S4x4096_S4x4096_0_0 : ∀ a, (![0, 0] : Fin 2 → Nat) a + S4x4096.size a ≤ S4x4096.size a
  h_S4x4096 : 0 < S4x4096.numel
  shapeCasts_S4x4096_S4x4096 : S4x4096.ShapeCasts S4x4096
  inb_S4x128x3_S4x128x3_0_0_0 : ∀ a, (![0, 0, 0] : Fin 3 → Nat) a + S4x128x3.size a ≤ S4x128x3.size a
  h_S4x128x3 : 0 < S4x128x3.numel
  inb_S4x4096x3_S4x4096x3_0_0_0 : ∀ a, (![0, 0, 0] : Fin 3 → Nat) a + S4x4096x3.size a ≤ S4x4096x3.size a
  h_S4x4096x3 : 0 < S4x4096x3.numel
  slices_S4x128x3_o0_0_0_S4x128x1 : S4x128x3.Slices ![0, 0, 0] S4x128x1
  shapeCasts_S4x128x1_S4x128 : S4x128x1.ShapeCasts S4x128
  slices_S4x128x3_o0_0_1_S4x128x1 : S4x128x3.Slices ![0, 0, 1] S4x128x1
  slices_S4x128x3_o0_0_2_S4x128x1 : S4x128x3.Slices ![0, 0, 2] S4x128x1
  slices_S4x4096x3_o0_0_0_S4x4096x1 : S4x4096x3.Slices ![0, 0, 0] S4x4096x1
  shapeCasts_S4x4096x1_S4x4096 : S4x4096x1.ShapeCasts S4x4096
  slices_S4x4096x3_o0_0_1_S4x4096x1 : S4x4096x3.Slices ![0, 0, 1] S4x4096x1
  slices_S4x4096x3_o0_0_2_S4x4096x1 : S4x4096x3.Slices ![0, 0, 2] S4x4096x1
  shapeCasts_S4x128_S4x128x1 : S4x128.ShapeCasts S4x128x1
  shapeCasts_S4x4096_S4x1x4096 : S4x4096.ShapeCasts S4x1x4096
  broadcasts_S4x128x1_S4x128x4096 : S4x128x1.Broadcasts S4x128x4096
  broadcasts_S4x1x4096_S4x128x4096 : S4x1x4096.Broadcasts S4x128x4096
  reduces_S4x128x4096_S4x128 : S4x128x4096.Reduces [2] S4x128
  inb_S4x128_S4x128_0_0 : ∀ a, (![0, 0] : Fin 2 → Nat) a + S4x128.size a ≤ S4x128.size a
  h_S4x128 : 0 < S4x128.numel
  reduces_S4x128x4096_S4x4096 : S4x128x4096.Reduces [1] S4x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x3.size a ≤ S4x4096x3.size a
  hwx0_0 : ∀ i : grid0.Coords, EltTy.bits .f32 = 32 ∨ (Rect.block (s := S4x4096x3) S4x128x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x4096x3.size a ≤ S4x4096x3.size a
  hwx0_1 : ∀ i : grid0.Coords, EltTy.bits .f32 = 32 ∨ (Rect.block (s := S4x4096x3) S4x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x128.size a ≤ S4x4096.size a
  hwx0_2 : ∀ i : grid0.Coords, EltTy.bits .f32 = 32 ∨ (Rect.block (s := S4x4096) S4x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x4096.size a ≤ S4x4096.size a
  hwx0_3 : ∀ i : grid0.Coords, EltTy.bits .f32 = 32 ∨ (Rect.block (s := S4x4096) S4x4096.size (cc0_transform_3 i) (hinb0_3 i)).WholeWords (EltTy.packing .f32)

variable [Facts₀]

abbrev win0_0 : Pipeline.Window sig grid0 :=
  Pipeline.Window.ofSpec (Memref.whole main_arg0) S4x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x4096x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0_0) S4x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0_1) S4x4096.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S4x4096x1 : Shape := ⟨3, ![4, 4096, 1]⟩
abbrev S4x4096 : Shape := ⟨2, ![4, 4096]⟩
abbrev S4x1x4096 : Shape := ⟨3, ![4, 1, 4096]⟩
abbrev S4x4096x4096 : Shape := ⟨3, ![4, 4096, 4096]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x1, .f32⟩
  | .hbm, ⟨3, _⟩ => ⟨S4x4096, .f32⟩
  | .hbm, ⟨4, _⟩ => ⟨S4x4096x1, .f32⟩
  | .hbm, ⟨5, _⟩ => ⟨S4x4096x1, .f32⟩
  | .hbm, ⟨6, _⟩ => ⟨S4x4096, .f32⟩
  | .hbm, ⟨7, _⟩ => ⟨S4x1x4096, .f32⟩
  | .hbm, ⟨8, _⟩ => ⟨S4x4096x4096, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S4x4096x1, .f32⟩
  | .hbm, ⟨13, _⟩ => ⟨S4x4096, .f32⟩
  | .hbm, ⟨14, _⟩ => ⟨S4x4096x1, .f32⟩
  | .hbm, ⟨15, _⟩ => ⟨S4x4096x1, .f32⟩
  | .hbm, ⟨16, _⟩ => ⟨S4x4096, .f32⟩
  | .hbm, ⟨17, _⟩ => ⟨S4x1x4096, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | .hbm, ⟨23, _⟩ => ⟨S4x4096x1, .f32⟩
  | .hbm, ⟨24, _⟩ => ⟨S4x4096, .f32⟩
  | .hbm, ⟨25, _⟩ => ⟨S4x4096x1, .f32⟩
  | .hbm, ⟨26, _⟩ => ⟨S4x4096x1, .f32⟩
  | .hbm, ⟨27, _⟩ => ⟨S4x4096, .f32⟩
  | .hbm, ⟨28, _⟩ => ⟨S4x1x4096, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S_, .f32⟩
  | .hbm, ⟨35, _⟩ => ⟨S4x4096, .f32⟩
  | .hbm, ⟨36, _⟩ => ⟨S_, .f32⟩
  | .hbm, ⟨37, _⟩ => ⟨S4x4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_cst : Ref sig .tc := ⟨.hbm, 34, rfl⟩
abbrev main_v32 : Ref sig .tc := ⟨.hbm, 35, rfl⟩
abbrev main_cst_0 : Ref sig .tc := ⟨.hbm, 36, rfl⟩
abbrev main_v33 : Ref sig .tc := ⟨.hbm, 37, rfl⟩
abbrev main_cst_1 : Ref sig .tc := ⟨.hbm, 38, rfl⟩
abbrev main_v34 : Ref sig .tc := ⟨.hbm, 39, rfl⟩
abbrev main_cst_2 : Ref sig .tc := ⟨.hbm, 40, rfl⟩
abbrev main_v35 : Ref sig .tc := ⟨.hbm, 41, rfl⟩
abbrev main_cst_3 : Ref sig .tc := ⟨.hbm, 42, rfl⟩
abbrev main_v36 : Ref sig .tc := ⟨.hbm, 43, rfl⟩
abbrev main_cst_4 : Ref sig .tc := ⟨.hbm, 44, rfl⟩
abbrev main_v37 : Ref sig .tc := ⟨.hbm, 45, rfl⟩
abbrev main_v38 : Ref sig .tc := ⟨.hbm, 46, rfl⟩
abbrev main_cst_5 : Ref sig .tc := ⟨.hbm, 47, rfl⟩
abbrev main_v39 : Ref sig .tc := ⟨.hbm, 48, rfl⟩

abbrev nD : Nat := 1
abbrev τ : Topo := Topo.v7x

variable {F : FTy → Type} [FloatOps F]

class Facts₀ : Prop where
  slices_S4x4096x3_S4x4096x1_0_0_0 : S4x4096x3.Slices ![0, 0, 0] S4x4096x1
  shapeCasts_S4x4096x1_S4x4096 : S4x4096x1.ShapeCasts S4x4096
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  slices_S4x4096x3_S4x4096x1_0_0_1 : S4x4096x3.Slices ![0, 0, 1] S4x4096x1
  slices_S4x4096x3_S4x4096x1_0_0_2 : S4x4096x3.Slices ![0, 0, 2] S4x4096x1
  reducesTo_S4x4096x4096_S4x4096_d2 : S4x4096x4096.ReducesTo [2] S4x4096
  h_S_ : 0 < S_.numel
  reducesTo_S4x4096x4096_S4x4096_d1 : S4x4096x4096.ReducesTo [1] S4x4096
  reducesTo_S4x4096_S_d0_1 : S4x4096.ReducesTo [0, 1] S_

variable [Facts₀]

class Facts : Prop extends Facts₀ where

variable [Facts]
-- ==== Proof.Spec.lean ====
/-
  The mathematics of the bidirectional nearest-neighbour L1 distance, stated once, free of either program.

  For two clouds `X, Y` of 4 × 4096 points in three coordinates,
    `dist X Y b i j = |X b i 0 − Y b j 0| + |X b i 1 − Y b j 1| + |X b i 2 − Y b j 2|`   (the grouping `(· + ·) + ·`),
    `nearY X Y (b, i) = min over j of dist X Y b i j`   (nearest point of `Y` to point `i` of `X`),
    `nearX X Y (b, j) = min over i of dist X Y b i j`   (nearest point of `X` to point `j` of `Y`),
  the minima taken in the extended reals from `⊤`, and the loss is the sum of the two means (`lossOf`).

  The one law the comparison needs is about minima only: the minimum over all 4096 rows is reached by folding, tile of
  128 rows after tile, the minimum of the running value and the tile's own minimum, started from `⊤`
  (`IsMinBelow`, its step and its end). Minima in a linear order associate and commute, so no finiteness is used.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- A cloud: 4 batches of 4096 points in 3 coordinates. -/
abbrev SP : Shape := ⟨3, ![4, 4096, 3]⟩
/-- One number per point. -/
abbrev SM : Shape := ⟨2, ![4, 4096]⟩
/-- A scalar. -/
abbrev S0 : Shape := ⟨0, ![]⟩

/-- The absolute value on the extended reals as both programs compute it. -/
abbrev eabs (x : EReal) : EReal := max x (-x)

/-- The L1 distance between point `i` of `X` and point `j` of `Y` in batch `b`, coordinates added first to last. -/
def dist (X Y : SP.Idx → EReal) (b : Fin 4) (i j : Fin 4096) : EReal :=
  eabs (X (ix3 b i 0) - Y (ix3 b j 0)) + eabs (X (ix3 b i 1) - Y (ix3 b j 1)) + eabs (X (ix3 b i 2) - Y (ix3 b j 2))

/-- For each point of `X`, its distance to the nearest point of `Y`. -/
def nearY (X Y : SP.Idx → EReal) : SM.Idx → EReal := fun p =>
  (Finset.univ : Finset (Fin 4096)).inf fun j => dist X Y (p 0) (p 1) j

/-- For each point of `Y`, its distance to the nearest point of `X`. -/
def nearX (X Y : SP.Idx → EReal) : SM.Idx → EReal := fun p =>
  (Finset.univ : Finset (Fin 4096)).inf fun i => dist X Y (p 0) i (p 1)

/-- The f32 pattern of `+∞` is the top of the extended reals. -/
theorem ofBits_inf : Ideal.ofBits .f32 0x7F800000#32 = (⊤ : EReal) := by
  simp [Ideal.ofBits, Ideal.ieee]

/-- A fold of `min` from `⊤` over a finite set is the set's infimum. -/
theorem fold_min_top {ι : Type} (s : Finset ι) (f : ι → EReal) : s.fold min (⊤ : EReal) f = s.inf f := by
  refine eq_of_forall_le_iff fun z => ?_
  rw [Finset.le_fold_min, Finset.le_inf_iff]
  exact ⟨fun h => h.2, fun h => ⟨le_top, h⟩⟩

/-- The reference's reduction: a `stablehlo.reduce` with a minimum body over ONE axis, started from `⊤`, is at each result
    index the infimum over that axis's coordinates. -/
theorem hostMin_single {s t u : Shape} {a : Fin s.rank} (h' : s.ReducesTo [a] t) (h : s.Reduces [a] t) (hu : 0 < u.numel)
    (x : s.Idx → EReal) (init : u.Idx → EReal) (hinit : init (Shape.Idx.first hu) = ⊤) (j : t.Idx) :
    Host.reduce (FloatOps.minimumf (F := Ideal) (φ := .f32)) x init h' hu j
      = (Finset.univ : Finset (Fin (s.size a))).inf fun k => x (h.lift j k) := by
  rw [Host.reduce_eq_fold_single (FloatOps.minimumf (F := Ideal) (φ := .f32)) x init h' h hu j, hinit]
  exact fold_min_top _ _

/-- The kernel's reduction: a `vector.multi_reduction <minimumf>` over ONE axis from the pattern of `+∞` is the same
    infimum. -/
theorem vecMin_single {s t : Shape} {a : Fin s.rank} (src : FVec Ideal s .f32) (h : s.Reduces [a] t)
    (hφ : FKind.Formats .f32) (hacc : (0x7F800000#32 : BitVec 32) = FKind.minimumf.neutral .f32 hφ) (j : t.Idx) :
    multiReduction .minimumf [a] t src 0x7F800000#32 h hφ hacc j
      = (Finset.univ : Finset (Fin (s.size a))).inf fun k => src (h.lift j k) := by
  rw [multiReduction_minimumf_eq_fold src _ h hφ hacc j, h.fold_filter_drop_single _ _ src j]
  show Finset.fold min (Ideal.ofBits .f32 0x7F800000#32) _ _ = _
  rw [ofBits_inf]
  exact fold_min_top _ _

/-- `s` is the minimum of `f` over the rows below `n`: the lower bounds of `s` are the common lower bounds of those
    values. -/
def IsMinBelow (s : EReal) (n : ℕ) (f : Fin 4096 → EReal) : Prop :=
  ∀ z : EReal, z ≤ s ↔ ∀ i : Fin 4096, i.val < n → z ≤ f i

/-- Over no rows the minimum is `⊤`. -/
theorem isMinBelow_zero (f : Fin 4096 → EReal) : IsMinBelow ⊤ (128 * 0) f :=
  fun _ => ⟨fun _ i h => absurd h (Nat.not_lt_zero _), fun _ => le_top⟩

/-- One tile more: the minimum of the running value and the minimum over the tile's 128 rows. -/
theorem IsMinBelow.step {s : EReal} {t : ℕ} {f : Fin 4096 → EReal} (h : IsMinBelow s (128 * t) f) (ht : t < 32)
    (g : Fin 128 → EReal) (hg : ∀ r : Fin 128, g r = f ⟨128 * t + r.val, by have := r.isLt; omega⟩) :
    IsMinBelow (min s ((Finset.univ : Finset (Fin 128)).inf g)) (128 * (t + 1)) f := by
  intro z
  rw [le_min_iff, h z, Finset.le_inf_iff]
  constructor
  · rintro ⟨h1, h2⟩ i hi
    by_cases hlt : i.val < 128 * t
    · exact h1 i hlt
    · have := h2 ⟨i.val - 128 * t, by omega⟩ (Finset.mem_univ _)
      rw [hg] at this
      convert this using 2
      exact Fin.ext (by simp only; omega)
  · intro h'
    refine ⟨fun i hi => h' i (by omega), fun r _ => ?_⟩
    rw [hg]
    exact h' _ (by simp only; have := r.isLt; omega)

/-- After all 32 tiles the running value is the minimum over every row. -/
theorem IsMinBelow.eq_inf {s : EReal} {f : Fin 4096 → EReal} (h : IsMinBelow s (128 * 32) f) :
    s = (Finset.univ : Finset (Fin 4096)).inf f := by
  refine eq_of_forall_le_iff fun z => ?_
  rw [h z, Finset.le_inf_iff]
  exact ⟨fun h' i _ => h' i i.isLt, fun h' i _ => h' i (Finset.mem_univ _)⟩

/-- The loss from the two nearest-neighbour arrays: the sum of their means, times one — the host operations both
    programs end with, word for word (sum from `0`, quotient by `16384`, sum, product with `1`). -/
def lossOf (hr : SM.ReducesTo [0, 1] S0) (h0 : 0 < S0.numel) (cx cy : SM.Idx → EReal) : S0.Idx → EReal :=
  mulf (F := Ideal) (φ := .f32) (constant (F := Ideal) S0 .f32 0x3F800000#32)
    (addf (F := Ideal) (φ := .f32)
      (Host.divf (F := Ideal) (φ := .f32) (Host.reduceAdd (F := Ideal) (φ := .f32) cx (constant (F := Ideal) S0 .f32 0x00000000#32) hr h0)
        (constant (F := Ideal) S0 .f32 0x46800000#32))
      (Host.divf (F := Ideal) (φ := .f32) (Host.reduceAdd (F := Ideal) (φ := .f32) cy (constant (F := Ideal) S0 .f32 0x00000000#32) hr h0)
        (constant (F := Ideal) S0 .f32 0x46800000#32)))

end Cert.Chamfer

end
-- ==== Proof.RefValue.lean ====
/-
  The reference's result is the loss of the two nearest-neighbour arrays.

  Read one operation at a time, the reference's `[4, 4096, 4096]` array of pairwise distances holds `dist X Y b i j` at
  `(b, i, j)`: each coordinate column is sliced out, reshaped, broadcast as a column (for `X`) or as a row (for `Y`), and
  the absolute differences are added first to last. Its two `minimum` reductions from `+∞`, over the last and over the
  middle axis, are then `nearY` and `nearX`, and what follows them is `lossOf` word for word.
-/
import proofs.«149054_j19207093748111_1_alg».proof.Proof.Gen.ReferenceIdeal.Run
import proofs.«149054_j19207093748111_1_alg».proof.Proof.Gen.ReferenceIdeal.Read
import proofs.«149054_j19207093748111_1_alg».proof.Proof.Spec

noncomputable section

open Idealize.ShloMosaic Idealize.ShloMosaic.TcCoe Idealize.SL.Sem

namespace Cert.ReferenceIdeal.RefValue

open Cert.ReferenceIdeal Cert.ReferenceIdeal.Gen Cert.ReferenceIdeal.Read Cert.Chamfer Idealize.ShloMosaic.ValueIdx

/-! ## Where each operand of a distance is read -/

theorem ixX0 (b : Fin 4) (i j : Fin 4096) :
    idx_main_v0 (idx_main_v1 (idx_main_v2 (idx_main_v6 (ix3 b i j)))) = ix3 b i 0 := by
  funext a
  apply Fin.ext
  have hb := b.isLt
  have hv := i.isLt
  match a with
  | ⟨0, _⟩ => show (b.val * 4096 + i.val) / 4096 = b.val; omega
  | ⟨1, _⟩ => show (b.val * 4096 + i.val) / 1 % 4096 = i.val; omega
  | ⟨2, _⟩ => rfl

theorem ixY0 (b : Fin 4) (i j : Fin 4096) :
    idx_main_v3 (idx_main_v4 (idx_main_v5 (idx_main_v7 (ix3 b i j)))) = ix3 b j 0 := by
  funext a
  apply Fin.ext
  have hb := b.isLt
  have hv := j.isLt
  match a with
  | ⟨0, _⟩ => show (b.val * 4096 + j.val) / 4096 = b.val; omega
  | ⟨1, _⟩ => show (b.val * 4096 + j.val) / 1 % 4096 = j.val; omega
  | ⟨2, _⟩ => rfl

theorem ixX1 (b : Fin 4) (i j : Fin 4096) :
    idx_main_v10 (idx_main_v11 (idx_main_v12 (idx_main_v16 (ix3 b i j)))) = ix3 b i 1 := by
  funext a
  apply Fin.ext
  have hb := b.isLt
  have hv := i.isLt
  match a with
  | ⟨0, _⟩ => show (b.val * 4096 + i.val) / 4096 = b.val; omega
  | ⟨1, _⟩ => show (b.val * 4096 + i.val) / 1 % 4096 = i.val; omega
  | ⟨2, _⟩ => rfl

theorem ixY1 (b : Fin 4) (i j : Fin 4096) :
    idx_main_v13 (idx_main_v14 (idx_main_v15 (idx_main_v17 (ix3 b i j)))) = ix3 b j 1 := by
  funext a
  apply Fin.ext
  have hb := b.isLt
  have hv := j.isLt
  match a with
  | ⟨0, _⟩ => show (b.val * 4096 + j.val) / 4096 = b.val; omega
  | ⟨1, _⟩ => show (b.val * 4096 + j.val) / 1 % 4096 = j.val; omega
  | ⟨2, _⟩ => rfl

theorem ixX2 (b : Fin 4) (i j : Fin 4096) :
    idx_main_v21 (idx_main_v22 (idx_main_v23 (idx_main_v27 (ix3 b i j)))) = ix3 b i 2 := by
  funext a
  apply Fin.ext
  have hb := b.isLt
  have hv := i.isLt
  match a with
  | ⟨0, _⟩ => show (b.val * 4096 + i.val) / 4096 = b.val; omega
  | ⟨1, _⟩ => show (b.val * 4096 + i.val) / 1 % 4096 = i.val; omega
  | ⟨2, _⟩ => rfl

theorem ixY2 (b : Fin 4) (i j : Fin 4096) :
    idx_main_v24 (idx_main_v25 (idx_main_v26 (idx_main_v28 (ix3 b i j)))) = ix3 b j 2 := by
  funext a
  apply Fin.ext
  have hb := b.isLt
  have hv := j.isLt
  match a with
  | ⟨0, _⟩ => show (b.val * 4096 + j.val) / 4096 = b.val; omega
  | ⟨1, _⟩ => show (b.val * 4096 + j.val) / 1 % 4096 = j.val; omega
  | ⟨2, _⟩ => rfl

/-! ## The distances, the two minima, the loss -/

/-- The reference's array of pairwise distances at `(b, i, j)`. -/
theorem dist_at (X Y : (⟨S4x4096x3, .f32⟩ : BufTy).Contents (Elt Ideal)) (b : Fin 4) (i j : Fin 4096) :
    val_main_v31 (F := Ideal) X Y (ix3 b i j) = dist X Y b i j := by
  rw [val_main_v31_apply, val_main_v20_apply, val_main_v30_apply, val_main_v9_apply, val_main_v19_apply,
    val_main_v29_apply, val_main_v8_apply, val_main_v18_apply,
    val_main_v6_apply, val_main_v7_apply, val_main_v16_apply, val_main_v17_apply, val_main_v27_apply, val_main_v28_apply,
    val_main_v2_apply, val_main_v5_apply, val_main_v12_apply, val_main_v15_apply, val_main_v23_apply, val_main_v26_apply,
    val_main_v1_apply, val_main_v4_apply, val_main_v11_apply, val_main_v14_apply, val_main_v22_apply, val_main_v25_apply,
    val_main_v0_apply, val_main_v3_apply, val_main_v10_apply, val_main_v13_apply, val_main_v21_apply, val_main_v24_apply,
    ixX0, ixY0, ixX1, ixY1, ixX2, ixY2]
  rfl

theorem red2 : S4x4096x4096.Reduces [2] S4x4096 := by decide
theorem red1 : S4x4096x4096.Reduces [1] S4x4096 := by decide

/-- The reduction over the last axis is `nearY`. -/
theorem v32_eq (X Y : (⟨S4x4096x3, .f32⟩ : BufTy).Contents (Elt Ideal)) : val_main_v32 (F := Ideal) X Y = nearY X Y := by
  funext p
  obtain ⟨b, i, rfl⟩ : ∃ (b : Fin 4) (i : Fin 4096), p = ix2 b i := ⟨p 0, p 1, eq_ix2 p⟩
  unfold val_main_v32 nearY
  refine (hostMin_single reducesTo_S4x4096x4096_S4x4096_d2 red2 h_S_ _ _ ofBits_inf (ix2 b i)).trans ?_
  refine Finset.inf_congr rfl fun k _ => ?_
  refine Eq.trans (congrArg (val_main_v31 (F := Ideal) X Y) (?_ : _ = ix3 b i k)) (dist_at X Y b i k)
  funext a
  apply Fin.ext
  match a with
  | ⟨0, _⟩ => rfl
  | ⟨1, _⟩ => rfl
  | ⟨2, _⟩ => rfl

/-- The reduction over the middle axis is `nearX`. -/
theorem v33_eq (X Y : (⟨S4x4096x3, .f32⟩ : BufTy).Contents (Elt Ideal)) : val_main_v33 (F := Ideal) X Y = nearX X Y := by
  funext p
  obtain ⟨b, j, rfl⟩ : ∃ (b : Fin 4) (j : Fin 4096), p = ix2 b j := ⟨p 0, p 1, eq_ix2 p⟩
  unfold val_main_v33 nearX
  refine (hostMin_single reducesTo_S4x4096x4096_S4x4096_d1 red1 h_S_ _ _ ofBits_inf (ix2 b j)).trans ?_
  refine Finset.inf_congr rfl fun k _ => ?_
  refine Eq.trans (congrArg (val_main_v31 (F := Ideal) X Y) (?_ : _ = ix3 b k j)) (dist_at X Y b k j)
  funext a
  apply Fin.ext
  match a with
  | ⟨0, _⟩ => rfl
  | ⟨1, _⟩ => rfl
  | ⟨2, _⟩ => rfl

/-- The reference's result: the loss of the two nearest-neighbour arrays of its arguments. -/
theorem result_eq (m : (ℓ : Loc nD τ sig) → Buf (Elt Ideal) ℓ) (c : Dev nD) :
    Cert.ReferenceIdeal.Value.res_main_v39 (F := Ideal) m c
      = lossOf reducesTo_S4x4096_S_d0_1 h_S_
          (nearY (m ((c.tc : Thread nD τ).loc main_arg0)) (m ((c.tc : Thread nD τ).loc main_arg1)))
          (nearX (m ((c.tc : Thread nD τ).loc main_arg0)) (m ((c.tc : Thread nD τ).loc main_arg1))) := by
  rw [val_main_v39_eq]
  unfold val_main_v39 val_main_v38 val_main_v35 val_main_v37 val_main_v34 val_main_v36
  rw [v32_eq, v33_eq]
  rfl

end Cert.ReferenceIdeal.RefValue

end
-- ==== Proof.Pieces.lean ====
/-
  What one grid point leaves behind, case by case, as values.

  Every point stores, into the first output's block, the row minima of the tile's distance array (`k0_pay4`), and into the
  carried scratch the minimum of what the scratch held and the tile's column minima (`k0_pay1 (k0_pay5 · · prev)`).
  At the first point the scratch is first reset to `+∞` (`k0_pay2`) and that reset is what `prev` reads; at the last
  point the second output receives a copy of the scratch as just updated. Each statement below reads the stores the
  run found back as one value.
-/
import proofs.«149054_j19207093748111_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Case A: the tile's output block is the row minimum of the tile's distances (its one covering store). -/
theorem out_A_2 (c : Dev nD) (i : grid0.Coords) (arg1 : Memref sig .tc .vmem S4x128x3 .f32) (harg1 : arg1.IsWhole) (arg2 : Memref sig .tc .vmem S4x4096x3 .f32) (harg2 : arg2.IsWhole) (arg3 : Memref sig .tc .vmem S4x128 .f32) (harg3 : arg3.IsWhole) (arg4 : Memref sig .tc .vmem S4x4096 .f32) (harg4 : arg4.IsWhole) (arg5 : Memref sig .tc .vmem S4x4096 .f32) (harg5 : arg5.IsWhole) (hc0 : cond0_0 i) (hc1 : ¬cond0_1 i) (x0 : Vec F S4x128x3 .f32) (x1 : Vec F S4x4096x3 .f32) :
    out0_A_2 c i arg1 harg1 arg2 harg2 arg3 harg3 arg4 harg4 arg5 harg5 hc0 hc1 x0 x1 = k0_pay4 x0 x1 := by
  unfold out0_A_2
  rw [View.read_writes_eq_canon _ _ _ (cover0_A_2 c i arg1 harg1 arg2 harg2 arg3 harg3 arg4 harg4 arg5 harg5 hc0 hc1 x0 x1)]
  unfold kernelRun0_A
  dsimp only
  sl_unfold_words
  rw [View.canon_unit_zero hz2]
  simp only [View.readAt_eq_ld, harg1.read_unread, harg2.read_unread, View.ld_unit_zero (S := S4x128x3) hz3,
    View.ld_unit_zero (S := S4x4096x3) hz3]

/-- Case B: the tile's output block is the row minimum of the tile's distances (its one covering store). -/
theorem out_B_2 (c : Dev nD) (i : grid0.Coords) (arg1 : Memref sig .tc .vmem S4x128x3 .f32) (harg1 : arg1.IsWhole) (arg2 : Memref sig .tc .vmem S4x4096x3 .f32) (harg2 : arg2.IsWhole) (arg3 : Memref sig .tc .vmem S4x128 .f32) (harg3 : arg3.IsWhole) (arg4 : Memref sig .tc .vmem S4x4096 .f32) (harg4 : arg4.IsWhole) (arg5 : Memref sig .tc .vmem S4x4096 .f32) (harg5 : arg5.IsWhole) (hc0 : ¬cond0_0 i) (hc1 : ¬cond0_1 i) (x0 : Vec F S4x128x3 .f32) (x1 : Vec F S4x4096x3 .f32) (xs0 : Vec F S4x4096 .f32) :
    out0_B_2 c i arg1 harg1 arg2 harg2 arg3 harg3 arg4 harg4 arg5 harg5 hc0 hc1 x0 x1 xs0 = k0_pay4 x0 x1 := by
  unfold out0_B_2
  rw [View.read_writes_eq_canon _ _ _ (cover0_B_2 c i arg1 harg1 arg2 harg2 arg3 harg3 arg4 harg4 arg5 harg5 hc0 hc1 x0 x1 xs0)]
  unfold kernelRun0_B
  dsimp only
  sl_unfold_words
  rw [View.canon_unit_zero hz2]
  simp only [View.readAt_eq_ld, harg1.read_unread, harg2.read_unread, View.ld_unit_zero (S := S4x128x3) hz3,
    View.ld_unit_zero (S := S4x4096x3) hz3]

/-- Case C: the tile's output block is the row minimum of the tile's distances (its one covering store). -/
theorem out_C_2 (c : Dev nD) (i : grid0.Coords) (arg1 : Memref sig .tc .vmem S4x128x3 .f32) (harg1 : arg1.IsWhole) (arg2 : Memref sig .tc .vmem S4x4096x3 .f32) (harg2 : arg2.IsWhole) (arg3 : Memref sig .tc .vmem S4x128 .f32) (harg3 : arg3.IsWhole) (arg4 : Memref sig .tc .vmem S4x4096 .f32) (harg4 : arg4.IsWhole) (arg5 : Memref sig .tc .vmem S4x4096 .f32) (harg5 : arg5.IsWhole) (hc0 : ¬cond0_0 i) (hc1 : cond0_1 i) (x0 : Vec F S4x128x3 .f32) (x1 : Vec F S4x4096x3 .f32) (xs0 : Vec F S4x4096 .f32) :
    out0_C_2 c i arg1 harg1 arg2 harg2 arg3 harg3 arg4 harg4 arg5 harg5 hc0 hc1 x0 x1 xs0 = k0_pay4 x0 x1 := by
  unfold out0_C_2
  rw [View.read_writes_eq_canon _ _ _ (cover0_C_2 c i arg1 harg1 arg2 harg2 arg3 harg3 arg4 harg4 arg5 harg5 hc0 hc1 x0 x1 xs0)]
  unfold kernelRun0_C
  dsimp only
  sl_unfold_words
  rw [View.canon_unit_zero hz2]
  simp only [View.readAt_eq_ld, harg1.read_unread, harg2.read_unread, View.ld_unit_zero (S := S4x128x3) hz3,
    View.ld_unit_zero (S := S4x4096x3) hz3]

/-- The first point: the scratch is reset to `+∞`, read back, and left at the minimum of `+∞` and the tile's column
    minima. -/
theorem sout_A (c : Dev nD) (i : grid0.Coords) (arg1 : Memref sig .tc .vmem S4x128x3 .f32) (harg1 : arg1.IsWhole) (arg2 : Memref sig .tc .vmem S4x4096x3 .f32) (harg2 : arg2.IsWhole) (arg3 : Memref sig .tc .vmem S4x128 .f32) (harg3 : arg3.IsWhole) (arg4 : Memref sig .tc .vmem S4x4096 .f32) (harg4 : arg4.IsWhole) (arg5 : Memref sig .tc .vmem S4x4096 .f32) (harg5 : arg5.IsWhole) (hc0 : cond0_0 i) (hc1 : ¬cond0_1 i) (x0 : Vec F S4x128x3 .f32) (x1 : Vec F S4x4096x3 .f32) :
    sout0_A_0 c i arg1 harg1 arg2 harg2 arg3 harg3 arg4 harg4 arg5 harg5 hc0 hc1 x0 x1 = k0_pay1 (k0_pay5 x0 x1 (k0_pay2 (F := F))) := by
  unfold sout0_A_0
  rw [View.read_writes_eq_canon _ _ _ (scover0_A_0 c i arg1 harg1 arg2 harg2 arg3 harg3 arg4 harg4 arg5 harg5 hc0 hc1 x0 x1)]
  unfold kernelRun0_A
  dsimp only
  sl_unfold_words
  rw [View.canon_cons_unit_zero (S := S4x4096) hz2]
  simp only [View.readAt_eq_ld, harg1.read_unread, harg2.read_unread, View.ld_unit_zero (S := S4x128x3) hz3,
    View.ld_unit_zero (S := S4x4096x3) hz3, View.readCov_unit_zero (S := S4x4096) _ hz2]

/-- A middle point: the scratch is left at the minimum of what the point before left and the tile's column minima. -/
theorem sout_B (c : Dev nD) (i : grid0.Coords) (arg1 : Memref sig .tc .vmem S4x128x3 .f32) (harg1 : arg1.IsWhole) (arg2 : Memref sig .tc .vmem S4x4096x3 .f32) (harg2 : arg2.IsWhole) (arg3 : Memref sig .tc .vmem S4x128 .f32) (harg3 : arg3.IsWhole) (arg4 : Memref sig .tc .vmem S4x4096 .f32) (harg4 : arg4.IsWhole) (arg5 : Memref sig .tc .vmem S4x4096 .f32) (harg5 : arg5.IsWhole) (hc0 : ¬cond0_0 i) (hc1 : ¬cond0_1 i) (x0 : Vec F S4x128x3 .f32) (x1 : Vec F S4x4096x3 .f32) (xs0 : Vec F S4x4096 .f32) :
    sout0_B_0 c i arg1 harg1 arg2 harg2 arg3 harg3 arg4 harg4 arg5 harg5 hc0 hc1 x0 x1 xs0 = k0_pay1 (k0_pay5 x0 x1 xs0) := by
  unfold sout0_B_0
  rw [View.read_writes_eq_canon _ _ _ (scover0_B_0 c i arg1 harg1 arg2 harg2 arg3 harg3 arg4 harg4 arg5 harg5 hc0 hc1 x0 x1 xs0)]
  unfold kernelRun0_B
  dsimp only
  sl_unfold_words
  rw [View.canon_unit_zero hz2]
  simp only [View.readAt_eq_ld, harg1.read_unread, harg2.read_unread, harg5.read_unread, View.ld_unit_zero (S := S4x128x3) hz3,
    View.ld_unit_zero (S := S4x4096x3) hz3, View.ld_unit_zero (S := S4x4096) hz2]

/-- The last point updates the scratch the same way … -/
theorem sout_C (c : Dev nD) (i : grid0.Coords) (arg1 : Memref sig .tc .vmem S4x128x3 .f32) (harg1 : arg1.IsWhole) (arg2 : Memref sig .tc .vmem S4x4096x3 .f32) (harg2 : arg2.IsWhole) (arg3 : Memref sig .tc .vmem S4x128 .f32) (harg3 : arg3.IsWhole) (arg4 : Memref sig .tc .vmem S4x4096 .f32) (harg4 : arg4.IsWhole) (arg5 : Memref sig .tc .vmem S4x4096 .f32) (harg5 : arg5.IsWhole) (hc0 : ¬cond0_0 i) (hc1 : cond0_1 i) (x0 : Vec F S4x128x3 .f32) (x1 : Vec F S4x4096x3 .f32) (xs0 : Vec F S4x4096 .f32) :
    sout0_C_0 c i arg1 harg1 arg2 harg2 arg3 harg3 arg4 harg4 arg5 harg5 hc0 hc1 x0 x1 xs0 = k0_pay1 (k0_pay5 x0 x1 xs0) := by
  unfold sout0_C_0
  rw [View.read_writes_eq_canon _ _ _ (scover0_C_0 c i arg1 harg1 arg2 harg2 arg3 harg3 arg4 harg4 arg5 harg5 hc0 hc1 x0 x1 xs0)]
  unfold kernelRun0_C
  dsimp only
  sl_unfold_words
  rw [View.canon_unit_zero hz2]
  simp only [View.readAt_eq_ld, harg1.read_unread, harg2.read_unread, harg5.read_unread, View.ld_unit_zero (S := S4x128x3) hz3,
    View.ld_unit_zero (S := S4x4096x3) hz3, View.ld_unit_zero (S := S4x4096) hz2]

/-- … and copies the updated scratch into the second output's block. -/
theorem out_C_3 (c : Dev nD) (i : grid0.Coords) (arg1 : Memref sig .tc .vmem S4x128x3 .f32) (harg1 : arg1.IsWhole) (arg2 : Memref sig .tc .vmem S4x4096x3 .f32) (harg2 : arg2.IsWhole) (arg3 : Memref sig .tc .vmem S4x128 .f32) (harg3 : arg3.IsWhole) (arg4 : Memref sig .tc .vmem S4x4096 .f32) (harg4 : arg4.IsWhole) (arg5 : Memref sig .tc .vmem S4x4096 .f32) (harg5 : arg5.IsWhole) (hc0 : ¬cond0_0 i) (hc1 : cond0_1 i) (x0 : Vec F S4x128x3 .f32) (x1 : Vec F S4x4096x3 .f32) (xs0 : Vec F S4x4096 .f32) :
    out0_C_3 c i arg1 harg1 arg2 harg2 arg3 harg3 arg4 harg4 arg5 harg5 hc0 hc1 x0 x1 xs0 = k0_pay1 (k0_pay5 x0 x1 xs0) := by
  unfold out0_C_3
  rw [View.read_writes_eq_canon _ _ _ (cover0_C_3 c i arg1 harg1 arg2 harg2 arg3 harg3 arg4 harg4 arg5 harg5 hc0 hc1 x0 x1 xs0)]
  unfold kernelRun0_C
  dsimp only
  sl_unfold_words
  rw [View.canon_unit_zero hz2]
  simp only [View.readAt_eq_ld, harg1.read_unread, harg2.read_unread, harg5.read_unread, View.ld_unit_zero (S := S4x128x3) hz3,
    View.ld_unit_zero (S := S4x4096x3) hz3, View.ld_unit_zero (S := S4x4096) hz2, View.readCov_unit_zero (S := S4x4096) _ hz2]

end Cert.KernelIdeal.Pieces

end
-- ==== Proof.Body.lean ====
/-
  The body's arithmetic, read at an index over the extended reals.

  The tile's distance array `k0_pay3 x y` at `(b, r, j)` is the L1 distance between row `r` of the tile `x` and point `j` of
  `y` in batch `b`: the three coordinate columns are cut out, re-laid as a column and as a row, broadcast against each
  other, subtracted, and their absolute values added first to last. The first output's block (`k0_pay4`) at `(b, r)` is the
  infimum of that over `j`; the scratch's update (`k0_pay5`) at `(b, j)` is the minimum of the old entry and the infimum over
  the tile's rows `r`; `k0_pay1` re-lays nothing and `k0_pay2` is `⊤` everywhere.
-/
import proofs.«149054_j19207093748111_1_alg».proof.Proof.Gen.KernelIdeal.Frame
import Idealize.ShloMosaic.Lib.Pipeline.Value
import Idealize.ShloMosaic.Lib.Tactic
import Idealize.ShloMosaic.Lib.ValueIdx
import Idealize.ShloMosaic.Lib.ValueLayout
import proofs.«149054_j19207093748111_1_alg».proof.Proof.Spec
set_option maxRecDepth 16384

noncomputable section

open Idealize.ShloMosaic Idealize.ShloMosaic.TcCoe Idealize.SL.Sem Idealize.ShloMosaic.Tactic

namespace Cert.KernelIdeal.Body

open Cert.KernelIdeal Cert.KernelIdeal.Gen Cert.Chamfer Idealize.ShloMosaic.ValueIdx

section Layout
variable {α : Type}

/-- Column `k` of a `[4, n, 3]` array, as a `[4, n, 1]` array. -/
theorem slice_col {n : ℕ} (o : ℕ) (ho : o < 3) (x : (⟨3, ![4, n, 3]⟩ : Shape).Idx → α)
    (h : (⟨3, ![4, n, 3]⟩ : Shape).Slices ![0, 0, o] ⟨3, ![4, n, 1]⟩) (b : Fin 4) (r : Fin n) (u : Fin 1) :
    extractStridedSlice ⟨3, ![4, n, 1]⟩ ![0, 0, o] x h (ix3 b r u) = x (ix3 b r ⟨o, ho⟩) :=
  extractStridedSlice_apply _ x h _ _ fun a => by
    match a with
    | ⟨0, _⟩ => show b.val = 0 + b.val; omega
    | ⟨1, _⟩ => show r.val = 0 + r.val; omega
    | ⟨2, _⟩ => show o = o + u.val; omega

/-- Dropping the trailing unit axis. -/
theorem cast_drop {n : ℕ} (v : (⟨3, ![4, n, 1]⟩ : Shape).Idx → α) (h : (⟨3, ![4, n, 1]⟩ : Shape).ShapeCasts ⟨2, ![4, n]⟩)
    (b : Fin 4) (r : Fin n) : shapeCast ⟨2, ![4, n]⟩ v h (ix2 b r) = v (ix3 b r 0) :=
  shapeCast_apply v h _ _ (by
    rw [Shape.rowMajor_val_three, Shape.rowMajor_val_two]
    show (b.val * n + r.val) * 1 + 0 = b.val * n + r.val
    omega)

/-- Adding a trailing unit axis: a column. -/
theorem cast_col {n : ℕ} (v : (⟨2, ![4, n]⟩ : Shape).Idx → α) (h : (⟨2, ![4, n]⟩ : Shape).ShapeCasts ⟨3, ![4, n, 1]⟩)
    (b : Fin 4) (r : Fin n) (u : Fin 1) : shapeCast ⟨3, ![4, n, 1]⟩ v h (ix3 b r u) = v (ix2 b r) :=
  shapeCast_apply v h _ _ (by
    rw [Shape.rowMajor_val_three, Shape.rowMajor_val_two]
    show b.val * n + r.val = (b.val * n + r.val) * 1 + u.val
    omega)

/-- Adding a middle unit axis: a row. -/
theorem cast_row {n : ℕ} (v : (⟨2, ![4, n]⟩ : Shape).Idx → α) (h : (⟨2, ![4, n]⟩ : Shape).ShapeCasts ⟨3, ![4, 1, n]⟩)
    (b : Fin 4) (u : Fin 1) (j : Fin n) : shapeCast ⟨3, ![4, 1, n]⟩ v h (ix3 b u j) = v (ix2 b j) :=
  shapeCast_apply v h _ _ (by
    have hu : u.val = 0 := by omega
    rw [Shape.rowMajor_val_three, Shape.rowMajor_val_two]
    show b.val * n + j.val = (b.val * 1 + u.val) * n + j.val
    rw [hu]; simp)

/-- A column broadcast along the last axis. -/
theorem bcast_col (v : (⟨3, ![4, 128, 1]⟩ : Shape).Idx → α)
    (h : (⟨3, ![4, 128, 1]⟩ : Shape).Broadcasts ⟨3, ![4, 128, 4096]⟩) (b : Fin 4) (r : Fin 128) (j : Fin 4096) :
    broadcastTo ⟨3, ![4, 128, 4096]⟩ v h (ix3 b r j) = v (ix3 b r 0) :=
  broadcastTo_apply v h _ _ fun a => by
    match a with
    | ⟨0, _⟩ => show b.val = if (4 : ℕ) = 1 then 0 else b.val; rw [if_neg (by decide)]
    | ⟨1, _⟩ => show r.val = if (128 : ℕ) = 1 then 0 else r.val; rw [if_neg (by decide)]
    | ⟨2, _⟩ => show 0 = if (1 : ℕ) = 1 then 0 else j.val; rw [if_pos rfl]

/-- A row broadcast along the middle axis. -/
theorem bcast_row (v : (⟨3, ![4, 1, 4096]⟩ : Shape).Idx → α)
    (h : (⟨3, ![4, 1, 4096]⟩ : Shape).Broadcasts ⟨3, ![4, 128, 4096]⟩) (b : Fin 4) (r : Fin 128) (j : Fin 4096) :
    broadcastTo ⟨3, ![4, 128, 4096]⟩ v h (ix3 b r j) = v (ix3 b 0 j) :=
  broadcastTo_apply v h _ _ fun a => by
    match a with
    | ⟨0, _⟩ => show b.val = if (4 : ℕ) = 1 then 0 else b.val; rw [if_neg (by decide)]
    | ⟨1, _⟩ => show 0 = if (1 : ℕ) = 1 then 0 else r.val; rw [if_pos rfl]
    | ⟨2, _⟩ => show j.val = if (4096 : ℕ) = 1 then 0 else j.val; rw [if_neg (by decide)]

end Layout

theorem absf_at {s : Shape} (a : FVec Ideal s .f32) (i : s.Idx) : absf a i = eabs (a i) := rfl

/-- The tile's distance array at `(b, r, j)`. -/
theorem pay3_at (x : Vec Ideal S4x128x3 .f32) (y : Vec Ideal S4x4096x3 .f32) (b : Fin 4) (r : Fin 128) (j : Fin 4096) :
    k0_pay3 (F := Ideal) x y (ix3 b r j)
      = eabs (x (ix3 b r 0) - y (ix3 b j 0)) + eabs (x (ix3 b r 1) - y (ix3 b j 1)) + eabs (x (ix3 b r 2) - y (ix3 b j 2)) := by
  unfold k0_pay3
  rw [addf_apply, addf_apply, absf_at, absf_at, absf_at, subf_apply, subf_apply, subf_apply]
  rw [bcast_col, bcast_col, bcast_col, bcast_row, bcast_row, bcast_row]
  rw [cast_col, cast_col, cast_col, cast_row, cast_row, cast_row]
  rw [cast_drop, cast_drop, cast_drop, cast_drop, cast_drop, cast_drop]
  rw [slice_col 0 (by decide), slice_col 1 (by decide), slice_col 2 (by decide), slice_col 0 (by decide),
    slice_col 1 (by decide), slice_col 2 (by decide)]
  rfl

/-- The first output's block at `(b, r)`: the infimum of row `r`'s distances. -/
theorem pay4_at (x : Vec Ideal S4x128x3 .f32) (y : Vec Ideal S4x4096x3 .f32) (b : Fin 4) (r : Fin 128) :
    k0_pay4 (F := Ideal) x y (ix2 b r)
      = (Finset.univ : Finset (Fin 4096)).inf fun j => k0_pay3 (F := Ideal) x y (ix3 b r j) := by
  unfold k0_pay4
  refine (vecMin_single _ reduces_S4x128x4096_S4x128 _ _ (ix2 b r)).trans ?_
  refine Finset.inf_congr rfl fun k _ => congrArg (k0_pay3 (F := Ideal) x y) (funext fun a => Fin.ext ?_)
  match a with
  | ⟨0, _⟩ => rfl
  | ⟨1, _⟩ => rfl
  | ⟨2, _⟩ => rfl

/-- The scratch's update at `(b, j)`: the old entry against the infimum of column `j` over the tile's rows. -/
theorem pay5_at (x : Vec Ideal S4x128x3 .f32) (y : Vec Ideal S4x4096x3 .f32) (prev : Vec Ideal S4x4096 .f32) (b : Fin 4) (j : Fin 4096) :
    k0_pay5 (F := Ideal) x y prev (ix2 b j)
      = min (prev (ix2 b j)) ((Finset.univ : Finset (Fin 128)).inf fun r => k0_pay3 (F := Ideal) x y (ix3 b r j)) := by
  unfold k0_pay5
  rw [minimumf_apply]
  refine congrArg (min (prev (ix2 b j))) ?_
  refine (vecMin_single _ reduces_S4x128x4096_S4x4096 _ _ (ix2 b j)).trans ?_
  refine Finset.inf_congr rfl fun k _ => congrArg (k0_pay3 (F := Ideal) x y) (funext fun a => Fin.ext ?_)
  match a with
  | ⟨0, _⟩ => rfl
  | ⟨1, _⟩ => rfl
  | ⟨2, _⟩ => rfl

/-- Storing the update re-lays nothing. -/
theorem pay1_eq (v : FVec Ideal S4x4096 .f32) : k0_pay1 (F := Ideal) v = v := by
  unfold k0_pay1
  exact shapeCast_self _ _

/-- The reset value is `⊤` everywhere. -/
theorem pay2_at (p : S4x4096.Idx) : k0_pay2 (F := Ideal) p = (⊤ : EReal) := by
  unfold k0_pay2
  rw [shapeCast_self]
  exact ofBits_inf

end Cert.KernelIdeal.Body

end
-- ==== Proof.KValue.lean ====
/-
  What the kernel's two result arrays hold after the run, and hence its loss.

  Point `t` of the grid sees rows `128 t … 128 t + 127` of `X` and all of `Y`. Its distance array is therefore `dist X Y`
  on those rows (`tile_dist`), the block it writes to the first output is `nearY` on those rows, and the carried scratch
  after point `t` holds, at `(b, j)`, the minimum of `dist X Y b · j` over the rows below `128 (t + 1)` — by induction on the
  point, each step one more tile (`scratch_inv`). After the last point that is `nearX`, which the last point copies to
  the second output. The 32 blocks of the first output tile its array; the one block of the second is its array. What
  @main computes after the region is `lossOf` of the two arrays.
-/
import proofs.«149054_j19207093748111_1_alg».proof.Proof.Gen.KernelIdeal.Frame
import Idealize.ShloMosaic.Lib.Pipeline.Value
import Idealize.ShloMosaic.Lib.Tactic
import Idealize.ShloMosaic.Lib.ValueIdx
import Idealize.ShloMosaic.Lib.StableHlo.Run
import proofs.«149054_j19207093748111_1_alg».proof.Proof.Spec
import proofs.«149054_j19207093748111_1_alg».proof.Proof.Pieces
import proofs.«149054_j19207093748111_1_alg».proof.Proof.Body
set_option maxRecDepth 16384

noncomputable section

open Idealize.ShloMosaic Idealize.ShloMosaic.TcCoe Idealize.SL.Sem Idealize.ShloMosaic.Tactic

open Idealize.ShloMosaic.Pipeline (Dat)

namespace Cert.KernelIdeal.KValue

open Cert.KernelIdeal Cert.KernelIdeal.Gen Cert.KernelIdeal.Pieces Cert.KernelIdeal.Body Cert.Chamfer Idealize.ShloMosaic.ValueIdx

variable (m : (ℓ : Loc nD τ sig) → Buf (Elt Ideal) ℓ) (ρ : Dev nD → PrngReg)

/-- The two clouds as the region finds them. -/
abbrev X (c : Dev nD) : SP.Idx → EReal := V m c main_arg0
abbrev Y (c : Dev nD) : SP.Idx → EReal := V m c main_arg1
/-- The tile of `X` and the whole of `Y` that point `t` loads. -/
abbrev xblk (c : Dev nD) (t : Fin cfg0.N) : Vec Ideal S4x128x3 .f32 := iblk m c 0 t
abbrev yblk (c : Dev nD) (t : Fin cfg0.N) : Vec Ideal S4x4096x3 .f32 := iblk m c 1 t

theorem lt32 (t : Fin cfg0.N) : t.val < 32 := lt_of_lt_of_eq t.isLt (show cfg0.N = 32 from N_0)

/-- The block indices of the four windows: the tile of `X` and the block of the first output move down the rows with the
    point; `Y` and the second output stay put. -/
theorem idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = t.val
    ∧ win0_3.index t (0 : Fin 2) = 0 ∧ win0_3.index t (1 : Fin 2) = 0 :=
  (by decide +kernel : ∀ t : Fin grid0.N, _)

/-- Row `r` of point `t`'s tile is row `128 t + r` of `X`. -/
theorem xblk_at (c : Dev nD) (t : Fin cfg0.N) (b : Fin 4) (r : Fin 128) (k : Fin 3) :
    xblk m c t (ix3 b r k) = X m c (ix3 b ⟨128 * t.val + r.val, by have := lt32 t; have := r.isLt; omega⟩ k) := by
  show ((cfg0.win 0).blk t).view.read (Elt Ideal) (V m c (Pipeline.arrRef spec0 0)) (ix3 b r k) = _
  rw [View.read_apply]
  refine congrArg (V m c main_arg0) (funext fun a => Fin.ext ?_)
  obtain ⟨e0, e1, e2, -⟩ := idx_facts t
  match a with
  | ⟨0, _⟩ => show win0_0.index t (0 : Fin 3) * 4 + 1 * b.val = b.val; omega
  | ⟨1, _⟩ => show win0_0.index t (1 : Fin 3) * 128 + 1 * r.val = 128 * t.val + r.val; omega
  | ⟨2, _⟩ => show win0_0.index t (2 : Fin 3) * 3 + 1 * k.val = k.val; omega

/-- Every point sees all of `Y`. -/
theorem yblk_at (c : Dev nD) (t : Fin cfg0.N) (b : Fin 4) (j : Fin 4096) (k : Fin 3) :
    yblk m c t (ix3 b j k) = Y m c (ix3 b j k) := by
  show ((cfg0.win 1).blk t).view.read (Elt Ideal) (V m c (Pipeline.arrRef spec0 1)) (ix3 b j k) = _
  rw [View.read_apply]
  refine congrArg (V m c main_arg1) (funext fun a => Fin.ext ?_)
  obtain ⟨-, -, -, e0, e1, e2, -⟩ := idx_facts t
  match a with
  | ⟨0, _⟩ => show win0_1.index t (0 : Fin 3) * 4 + 1 * b.val = b.val; omega
  | ⟨1, _⟩ => show win0_1.index t (1 : Fin 3) * 4096 + 1 * j.val = j.val; omega
  | ⟨2, _⟩ => show win0_1.index t (2 : Fin 3) * 3 + 1 * k.val = k.val; omega

/-- Point `t`'s distance array is `dist X Y` on the tile's rows. -/
theorem tile_dist (c : Dev nD) (t : Fin cfg0.N) (b : Fin 4) (r : Fin 128) (j : Fin 4096) :
    k0_pay3 (F := Ideal) (xblk m c t) (yblk m c t) (ix3 b r j)
      = dist (X m c) (Y m c) b ⟨128 * t.val + r.val, by have := lt32 t; have := r.isLt; omega⟩ j := by
  rw [pay3_at, xblk_at, xblk_at, xblk_at, yblk_at, yblk_at, yblk_at]
  rfl

/-- Whatever the case, point `t` leaves the tile's row minima in the first output's block. -/
theorem out2_eq (c : Dev nD) (t : Fin cfg0.N) :
    (outsAt0 m c t.val t.isLt).1 = k0_pay4 (F := Ideal) (xblk m c t) (yblk m c t) := by
  have hN := lt32 t
  by_cases h0 : t.val % 32 = 0
  · have h1 : ¬t.val % 32 = 31 := by omega
    rw [outsAt0_A m c t h0 h1]; dsimp only
    exact out_A_2 (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)
  · by_cases h1 : t.val % 32 = 31
    · rw [outsAt0_C m c t h0 h1]; dsimp only
      exact out_C_2 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2
    · rw [outsAt0_B m c t h0 h1]; dsimp only
      exact out_B_2 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2

/-- After a point that is not the first, the scratch holds the update of what the point before left. -/
theorem scratch_step (c : Dev nD) (t : Fin cfg0.N) (h0 : ¬t.val % 32 = 0) :
    (outsAt0 m c t.val t.isLt).2.2 = k0_pay5 (F := Ideal) (xblk m c t) (yblk m c t) (outsAt0 m c (t.val - 1) (Nat.lt_of_le_of_lt (Nat.sub_le _ _) t.isLt)).2.2 := by
  by_cases h1 : t.val % 32 = 31
  · rw [outsAt0_C m c t h0 h1]; dsimp only
    exact (sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2).trans (pay1_eq _)
  · rw [outsAt0_B m c t h0 h1]; dsimp only
    exact (sout_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2).trans (pay1_eq _)

/-- After the first point it holds the update of the reset. -/
theorem scratch_first (c : Dev nD) (t : Fin cfg0.N) (h0 : t.val % 32 = 0) :
    (outsAt0 m c t.val t.isLt).2.2 = k0_pay5 (F := Ideal) (xblk m c t) (yblk m c t) (k0_pay2 (F := Ideal)) := by
  have hN := lt32 t
  have h1 : ¬t.val % 32 = 31 := by omega
  rw [outsAt0_A m c t h0 h1]; dsimp only
  exact (sout_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t)).trans (pay1_eq _)

/-- THE INVARIANT: after point `n` the scratch at `(b, j)` is the minimum of `dist X Y b · j` over the rows below
    `128 (n + 1)`. -/
theorem scratch_inv (c : Dev nD) : ∀ (n : ℕ) (h : n < cfg0.N) (b : Fin 4) (j : Fin 4096),
    IsMinBelow ((outsAt0 m c n h).2.2 (ix2 b j)) (128 * (n + 1)) (fun i => dist (X m c) (Y m c) b i j)
  | 0, h, b, j => by
    have e := scratch_first m c ⟨0, h⟩ rfl
    rw [show outsAt0 m c 0 h = outsAt0 m c (⟨0, h⟩ : Fin cfg0.N).val (⟨0, h⟩ : Fin cfg0.N).isLt from rfl, e, pay5_at, pay2_at]
    exact (isMinBelow_zero _).step (by decide) _ (fun r => tile_dist m c ⟨0, h⟩ b r j)
  | n + 1, h, b, j => by
    have hN : n + 1 < 32 := lt32 ⟨n + 1, h⟩
    have e := scratch_step m c ⟨n + 1, h⟩ (by show ¬(n + 1) % 32 = 0; omega)
    rw [show outsAt0 m c (n + 1) h = outsAt0 m c (⟨n + 1, h⟩ : Fin cfg0.N).val (⟨n + 1, h⟩ : Fin cfg0.N).isLt from rfl, e, pay5_at]
    exact (scratch_inv c n (Nat.lt_of_succ_lt h) b j).step hN _ (fun r => tile_dist m c ⟨n + 1, h⟩ b r j)

/-- The last point leaves `nearX` in the second output's block: a copy of the scratch, which by then has seen every row. -/
theorem out3_eq (c : Dev nD) (t : Fin cfg0.N) (h1 : t.val % 32 = 31) :
    (outsAt0 m c t.val t.isLt).2.1 = nearX (X m c) (Y m c) := by
  have hN := lt32 t
  have h0 : ¬t.val % 32 = 0 := by omega
  have e21 : (outsAt0 m c t.val t.isLt).2.1 = (outsAt0 m c t.val t.isLt).2.2 := by
    rw [outsAt0_C m c t h0 h1]; dsimp only
    exact (out_C_3 (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2).trans
      (sout_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2).symm
  rw [e21]
  funext p
  obtain ⟨b, j, rfl⟩ : ∃ (b : Fin 4) (j : Fin 4096), p = ix2 b j := ⟨p 0, p 1, eq_ix2 p⟩
  have hs := scratch_inv m c t.val t.isLt b j
  rw [show 128 * (t.val + 1) = 128 * 32 from by omega] at hs
  exact hs.eq_inf

/-! ## From blocks to arrays -/

/-- The row minima of point `t`'s tile are `nearY` on the tile's rows. -/
theorem row_min_eq (c : Dev nD) (t : Fin cfg0.N) (b : Fin 4) (r : Fin 128) :
    k0_pay4 (F := Ideal) (xblk m c t) (yblk m c t) (ix2 b r)
      = nearY (X m c) (Y m c) (ix2 b ⟨128 * t.val + r.val, by have := lt32 t; have := r.isLt; omega⟩) := by
  rw [pay4_at]
  exact Finset.inf_congr rfl fun j _ => tile_dist m c t b r j

/-- What point `t` writes back to the first output is block `t` of `nearY`. -/
theorem flushed2_eq (c : Dev nD) (t : Fin cfg0.N) :
    (dats m 0 c).flushed 2 t = ((cfg0.win 2).blk t).view.read (Elt Ideal) (nearY (X m c) (Y m c)) := by
  show (cfg0.win 2).cut (grid0.coords t) ((dats m 0 c).after 2 t) = _
  rw [after0_2, out2_eq]
  funext y
  show k0_pay4 (F := Ideal) (xblk m c t) (yblk m c t) y = _
  refine (congrArg (k0_pay4 (F := Ideal) (xblk m c t) (yblk m c t)) (eq_ix2 y)).trans ?_
  refine (row_min_eq m c t (y 0) (y 1)).trans ?_
  rw [View.read_apply]
  refine congrArg (nearY (X m c) (Y m c)) (funext fun a => Fin.ext ?_)
  obtain ⟨-, -, -, -, -, -, e0, e1, -⟩ := idx_facts t
  match a with
  | ⟨0, _⟩ => show (y 0).val = win0_2.index t (0 : Fin 2) * 4 + 1 * (y 0).val; omega
  | ⟨1, _⟩ => show 128 * t.val + (y 1).val = win0_2.index t (1 : Fin 2) * 128 + 1 * (y 1).val; omega

/-- An index of the first output is in point `t`'s block iff each coordinate is in the block's range. -/
theorem mem_blk2 (t : Fin cfg0.N) (i : S4x4096.Idx) :
    i ∈ ((cfg0.win 2).blk t).view.set ↔ ∀ a : Fin 2, win0_2.index t a * S4x128.size a ≤ (i a).val ∧ (i a).val < win0_2.index t a * S4x128.size a + S4x128.size a := by
  show i ∈ ((View.whole main_call0_v0_0).slice (win0_2.rect t)).set ↔ _
  rw [View.set_slice_whole, Rect.mem_set_unit]
  exact Iff.rfl

/-- The 32 blocks tile the first output: row `n` is in the block of point `n / 128`. -/
theorem cover2 (i : S4x4096.Idx) :
    ∃ t : Fin cfg0.N, (cfg0.win 2).flush t = true ∧ i ∈ ((cfg0.win 2).blk t).view.set := by
  have h0 : (i 0).val < 4 := (i 0).isLt
  have h1 : (i 1).val < 4096 := (i 1).isLt
  obtain ⟨t, ht⟩ : ∃ t : Fin cfg0.N, t.val = (i 1).val / 128 := ⟨⟨(i 1).val / 128, by rw [show cfg0.N = 32 from N_0]; omega⟩, rfl⟩
  refine ⟨t, flush0_2 t, ?_⟩
  rw [mem_blk2]
  obtain ⟨-, -, -, -, -, -, e0, e1, -⟩ := idx_facts t
  intro a
  match a with
  | ⟨0, _⟩ => show win0_2.index t (0 : Fin 2) * 4 ≤ (i 0).val ∧ (i 0).val < win0_2.index t (0 : Fin 2) * 4 + 4; omega
  | ⟨1, _⟩ => show win0_2.index t (1 : Fin 2) * 128 ≤ (i 1).val ∧ (i 1).val < win0_2.index t (1 : Fin 2) * 128 + 128; omega

/-- So the first output ends holding `nearY`. -/
theorem final2 (c : Dev nD) : (dats m 0 c).arrAt 2 cfg0.N = nearY (X m c) (Y m c) :=
  (dats m 0 c).arrAt_eq_of_cover 2 (nearY (X m c) (Y m c)) (fun t _ => flushed2_eq m c t) cover2

/-- The one write-back of the second output, after the last point, writes `nearX`: its block is the whole array. -/
theorem flushed3_eq (c : Dev nD) (t : Fin cfg0.N) (hf : (cfg0.win 3).flush t = true) :
    (dats m 0 c).flushed 3 t = ((cfg0.win 3).blk t).view.read (Elt Ideal) (nearX (X m c) (Y m c)) := by
  have h1 : t.val % 32 = 31 := (flush0_3 t).mp hf
  show (cfg0.win 3).cut (grid0.coords t) ((dats m 0 c).after 3 t) = _
  rw [after0_3, out3_eq m c t h1]
  funext y
  show nearX (X m c) (Y m c) y = _
  rw [View.read_apply]
  refine congrArg (nearX (X m c) (Y m c)) (funext fun a => Fin.ext ?_)
  obtain ⟨-, -, -, -, -, -, -, -, e0, e1⟩ := idx_facts t
  match a with
  | ⟨0, _⟩ => show (y 0).val = win0_3.index t (0 : Fin 2) * 4 + 1 * (y 0).val; omega
  | ⟨1, _⟩ => show (y 1).val = win0_3.index t (1 : Fin 2) * 4096 + 1 * (y 1).val; omega

/-- Membership in the second output's block, coordinate by coordinate. -/
theorem mem_blk3 (t : Fin cfg0.N) (i : S4x4096.Idx) :
    i ∈ ((cfg0.win 3).blk t).view.set ↔ ∀ a : Fin 2, win0_3.index t a * S4x4096.size a ≤ (i a).val ∧ (i a).val < win0_3.index t a * S4x4096.size a + S4x4096.size a := by
  show i ∈ ((View.whole main_call0_v0_1).slice (win0_3.rect t)).set ↔ _
  rw [View.set_slice_whole, Rect.mem_set_unit]
  exact Iff.rfl

/-- That block covers the second output. -/
theorem cover3 (i : S4x4096.Idx) :
    ∃ t : Fin cfg0.N, (cfg0.win 3).flush t = true ∧ i ∈ ((cfg0.win 3).blk t).view.set := by
  have h0 : (i 0).val < 4 := (i 0).isLt
  have h1 : (i 1).val < 4096 := (i 1).isLt
  obtain ⟨t, ht⟩ : ∃ t : Fin cfg0.N, t.val = 31 := ⟨⟨31, by rw [show cfg0.N = 32 from N_0]; decide⟩, rfl⟩
  refine ⟨t, (flush0_3 t).mpr (by rw [ht]), ?_⟩
  rw [mem_blk3]
  obtain ⟨-, -, -, -, -, -, -, -, e0, e1⟩ := idx_facts t
  intro a
  match a with
  | ⟨0, _⟩ => show win0_3.index t (0 : Fin 2) * 4 ≤ (i 0).val ∧ (i 0).val < win0_3.index t (0 : Fin 2) * 4 + 4; omega
  | ⟨1, _⟩ => show win0_3.index t (1 : Fin 2) * 4096 ≤ (i 1).val ∧ (i 1).val < win0_3.index t (1 : Fin 2) * 4096 + 4096; omega

/-- So the second output ends holding `nearX`. -/
theorem final3 (c : Dev nD) : (dats m 0 c).arrAt 3 cfg0.N = nearX (X m c) (Y m c) :=
  (dats m 0 c).arrAt_eq_of_cover 3 (nearX (X m c) (Y m c)) (flushed3_eq m c) cover3

/-! ## The loss -/

/-- What @main's operations after the region compute from the two arrays the region leaves. -/
theorem tail_eq (c : Dev nD) :
    Pipeline.afterTail₀ cfgs (dats m) 0 (V0 m) [hostOps1] c main_v0
      = lossOf reducesTo_S4x4096_S_d0_1 h_S_ (nearY (X m c) (Y m c)) (nearX (X m c) (Y m c)) := by
  unfold Pipeline.afterTail₀
  show StableHlo.after hostOps1 _ (Proc.devRef .tc main_v0) = _
  after_results
  have e2 := (Pipeline.withArrays_arr spec0 launch0.win.arr_inj c (V0 m c) (fun w => (dats m 0 c).arrAt w cfg0.N) 2).trans (final2 m c)
  have e3 := (Pipeline.withArrays_arr spec0 launch0.win.arr_inj c (V0 m c) (fun w => (dats m 0 c).arrAt w cfg0.N) 3).trans (final3 m c)
  show lossOf reducesTo_S4x4096_S_d0_1 h_S_
      (Pipeline.withArrays spec0 c (V0 m c) (fun w => (dats m 0 c).arrAt w cfg0.N) (Proc.devRef .tc (Pipeline.arrRef spec0 2)))
      (Pipeline.withArrays spec0 c (V0 m c) (fun w => (dats m 0 c).arrAt w cfg0.N) (Proc.devRef .tc (Pipeline.arrRef spec0 3))) = _
  rw [e2, e3]

/-! ## The run, read -/

/-- Every weakly fair execution of the kernel's @main ends with the result at the loss of the two nearest-neighbour arrays
    of its arguments, and the arguments unchanged. -/
theorem run : θ_run defs (onTc (τ := τ) (main (F := Ideal))) ⟨m, fun _ => 0, ρ⟩ fun r => ∀ c : Dev nD,
      r.2.mem ((c.tc : Thread nD τ).loc main_v0)
        = lossOf reducesTo_S4x4096_S_d0_1 h_S_
            (nearY (m ((c.tc : Thread nD τ).loc main_arg0)) (m ((c.tc : Thread nD τ).loc main_arg1)))
            (nearX (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v0 (Pipeline.mem_restRefs_of main_v0 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.lean ====
/-
  The bidirectional nearest-neighbour L1 loss of two clouds of 4 × 4096 points: a kernel that streams `X` in tiles of 128
  rows against all of `Y`, against the direct computation over the full 4096 × 4096 array of pairwise distances.

  Both compute, for every pair, `|x₀ − y₀| + |x₁ − y₁| + |x₂ − y₂|` in the same grouping; both take the minimum over the points
  of `Y` for each point of `X`, and the minimum over the points of `X` for each point of `Y`, starting from `+∞`; both
  then add the two means. The kernel's second minimum is accumulated across the 32 tiles in a scratch array: the minimum
  of the running value and the tile's own column minimum. Over the extended reals `min` is associative and commutative,
  so after the last tile the scratch is the minimum over all 4096 rows (Proof/Spec.lean, `IsMinBelow`); nothing else
  differs, and finiteness of the inputs is never used.

  Proof/Spec.lean states the mathematics; Proof/RefValue.lean reads the reference's run as that; Proof/Pieces.lean,
  Proof/Body.lean and Proof/KValue.lean read the kernel's run as that (per point, then by induction over the points, then
  from blocks to arrays, then through the closing host operations).
-/
import proofs.«149054_j19207093748111_1_alg».proof.Defs
import proofs.«149054_j19207093748111_1_alg».proof.Proof.Gen.Kernel
import proofs.«149054_j19207093748111_1_alg».proof.Proof.Gen.Kernel.Frame
import proofs.«149054_j19207093748111_1_alg».proof.Proof.Gen.KernelIdeal
import proofs.«149054_j19207093748111_1_alg».proof.Proof.Gen.KernelIdeal.Frame
import proofs.«149054_j19207093748111_1_alg».proof.Proof.Gen.ReferenceIdeal
import proofs.«149054_j19207093748111_1_alg».proof.Proof.Gen.ReferenceIdeal.Run
import proofs.«149054_j19207093748111_1_alg».proof.Proof.Gen.Pre_finite_inputs
import proofs.«149054_j19207093748111_1_alg».proof.Proof.RefValue
import proofs.«149054_j19207093748111_1_alg».proof.Proof.KValue
import Idealize.ShloMosaic.Adequacy
import Idealize.ShloMosaic.Init

noncomputable section

namespace Cert.Proof

open Idealize.ShloMosaic Idealize.SL.Sem

/-- The kernel as printed runs to its end and leaves its arguments alone. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten to read the kernel over the extended reals. -/
theorem preserves : Cert.preserves_Kernel_KernelIdeal := trivial

/-- From arguments that agree, both programs end with the loss of the same two nearest-neighbour arrays. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
